-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S4096_S4096x4096_1 : S4096.BroadcastsInDim S4096x4096 (![1] : Fin 1 → Fin S4096x4096.rank)
  shapeCasts_S4x4096x4096_S16384x4096 : S4x4096x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S4096x4096_1 : S4096.BroadcastsInDim S4096x4096 (![1] : Fin 1 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Spec.lean ====
/-
  The function both programs compute, index by index, on the extended reals.

  A linear layer `y = x · Wᵀ + b` over 16384 rows (the 4 × 4096 leading positions of `x`, flattened), 4096 input
  features and 4096 output features: entry `(r, n)` is `∑ₖ x[r, k] · W[n, k] + b[n]`. The weight `W` is whatever
  matrix the caller passes (both programs pass the argument weight times the same fixed column pattern, which is never
  opened). The sum over the 4096 input features is also written as eight consecutive blocks of 512 features, the order
  in which a blocked accumulation meets them; over the extended reals addition is commutative and associative, so the
  blocked sum is the whole sum, at the infinities too.
-/
import Idealize.ShloMosaic.PureOps.Ideal
import Idealize.ShloMosaic.Lib.ValueIdx
import Mathlib.Algebra.BigOperators.Fin
import Mathlib.Logic.Equiv.Fin.Basic

noncomputable section

namespace Cert.MaskedLinear

open Idealize.ShloMosaic Idealize.ShloMosaic.ValueIdx

/-- The flattened activations `[16384, 4096]`, the weight `[4096, 4096]` (output feature, input feature), the bias as
    one row `[1, 4096]`, the activations `[4, 4096, 4096]` and the bias `[4096]` as the programs take them. -/
abbrev SRows : Shape := ⟨2, ![16384, 4096]⟩
abbrev SWt : Shape := ⟨2, ![4096, 4096]⟩
abbrev SBiasRow : Shape := ⟨2, ![1, 4096]⟩
abbrev SAct : Shape := ⟨3, ![4, 4096, 4096]⟩
abbrev SBias : Shape := ⟨1, ![4096]⟩

/-- Input feature `kk` of feature block `b` (blocks of 512; `b < 8` in every use, the remainder only makes the
    function total). -/
def col (b : ℕ) (kk : Fin 512) : Fin 4096 := ⟨(b * 512 + kk.val) % 4096, Nat.mod_lt _ (by decide)⟩

theorem col_val (b : ℕ) (hb : b < 8) (kk : Fin 512) : (col b kk).val = b * 512 + kk.val := by
  have := kk.isLt
  show (b * 512 + kk.val) % 4096 = _
  omega

/-- One feature block's contribution to entry `(r, n)`. -/
def blockDot (X : SRows.Idx → EReal) (W : SWt.Idx → EReal) (r : Fin 16384) (n : Fin 4096) (b : ℕ) : EReal :=
  ∑ kk : Fin 512, X (ix2 r (col b kk)) * W (ix2 n (col b kk))

/-- The dot product of row `r` of `X` and row `n` of `W` over the first `nb` feature blocks. -/
def partDot (X : SRows.Idx → EReal) (W : SWt.Idx → EReal) (r : Fin 16384) (n : Fin 4096) (nb : ℕ) : EReal :=
  ∑ b ∈ Finset.range nb, blockDot X W r n b

theorem partDot_zero (X : SRows.Idx → EReal) (W : SWt.Idx → EReal) (r : Fin 16384) (n : Fin 4096) :
    partDot X W r n 0 = 0 := Finset.sum_range_zero _

theorem partDot_succ (X : SRows.Idx → EReal) (W : SWt.Idx → EReal) (r : Fin 16384) (n : Fin 4096) (nb : ℕ) :
    partDot X W r n (nb + 1) = partDot X W r n nb + blockDot X W r n nb := Finset.sum_range_succ _ _

/-- All eight blocks are the whole dot product. -/
theorem partDot_eight (X : SRows.Idx → EReal) (W : SWt.Idx → EReal) (r : Fin 16384) (n : Fin 4096) :
    partDot X W r n 8 = ∑ k : Fin 4096, X (ix2 r k) * W (ix2 n k) := by
  unfold partDot blockDot
  rw [← Equiv.sum_comp (finProdFinEquiv : Fin 8 × Fin 512 ≃ Fin 4096) (fun k => X (ix2 r k) * W (ix2 n k)),
    Fintype.sum_prod_type,
    ← Fin.sum_univ_eq_sum_range (fun b => ∑ kk : Fin 512, X (ix2 r (col b kk)) * W (ix2 n (col b kk))) 8]
  refine Finset.sum_congr rfl fun b _ => Finset.sum_congr rfl fun kk _ => ?_
  have e : col b.val kk = finProdFinEquiv (b, kk) := Fin.ext (by
    rw [col_val b.val b.isLt kk]
    show _ = kk.val + 512 * b.val
    omega)
  rw [e]

/-- The layer on the flattened rows: entry `(r, n)` is the eight blocks' dot product plus the bias row at `n`. -/
def flatLin (X : SRows.Idx → EReal) (W : SWt.Idx → EReal) (B : SBiasRow.Idx → EReal) : SRows.Idx → EReal :=
  fun i => partDot X W (i 0) (i 1) 8 + B (ix2 (0 : Fin 1) (i 1))

/-- The layer as the programs return it: entry `(a, s, n)` is `∑ₖ x[a, s, k] · W[n, k] + b[n]`. -/
def lin3 (x : SAct.Idx → EReal) (W : SWt.Idx → EReal) (b : SBias.Idx → EReal) : SAct.Idx → EReal :=
  fun i => (∑ k : Fin 4096, x (ix3 (i 0) (i 1) k) * W (ix2 (i 2) k)) + b (ix1 (i 2))

end Cert.MaskedLinear

end
-- ==== Proof.Blocks.lean ====
/-
  Which entries of the arrays each grid point's blocks hold. The grid is 16 × 4 × 8: point `t` is row block `t / 32`,
  output-feature block `t / 8 % 4` and input-feature block `t % 8`. The activations' block holds rows
  `1024·(t / 32) + p` at features `512·(t % 8) + kk`; the weight's block holds output features `1024·(t / 8 % 4) + q` at the
  same input features; the bias row's block holds those output features; the output's block holds those rows and output
  features.
-/
import proofs.«148594_j54090818126180_1_alg».proof.Proof.Gen.KernelIdeal.Frame
import proofs.«148594_j54090818126180_1_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.MaskedLinear

variable {F : FTy → Type} [FloatOps F]
variable (m : (ℓ : Loc nD τ sig) → Buf (Elt F) ℓ)

/-- Row `p` of row block `ib`, and output feature `q` of output block `jb` (`ib < 16`, `jb < 4` in every use; the
    remainders only make the functions total). -/
def rowOf (ib : ℕ) (p : Fin 1024) : Fin 16384 := ⟨(ib * 1024 + p.val) % 16384, Nat.mod_lt _ (by decide)⟩
def outOf (jb : ℕ) (q : Fin 1024) : Fin 4096 := ⟨(jb * 1024 + q.val) % 4096, Nat.mod_lt _ (by decide)⟩

theorem rowOf_val (ib : ℕ) (h : ib < 16) (p : Fin 1024) : (rowOf ib p).val = ib * 1024 + p.val := by
  have := p.isLt
  show (ib * 1024 + p.val) % 16384 = _
  omega
theorem outOf_val (jb : ℕ) (h : jb < 4) (q : Fin 1024) : (outOf jb q).val = jb * 1024 + q.val := by
  have := q.isLt
  show (jb * 1024 + q.val) % 4096 = _
  omega

/-- The printed index maps, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The arrays the region finds, and each point's input blocks, at their literal types. -/
abbrev xarr (c : Dev nD) : Vec F S16384x4096 .f32 := V m c main_v2
abbrev warr (c : Dev nD) : Vec F S4096x4096 .f32 := V m c main_v1
abbrev barr (c : Dev nD) : Vec F S1x4096 .f32 := V m c main_v3
abbrev xblk (c : Dev nD) (t : Fin cfg0.N) : Vec F S1024x512 .f32 := iblk m c 0 t
abbrev wblk (c : Dev nD) (t : Fin cfg0.N) : Vec F S1024x512 .f32 := iblk m c 1 t
abbrev bblk (c : Dev nD) (t : Fin cfg0.N) : Vec F S1x1024 .f32 := iblk m c 2 t

theorem lt512 (t : Fin cfg0.N) : t.val < 512 := lt_of_lt_of_eq t.isLt (show cfg0.N = 512 from N_0)

/-- The activations' block at point `t`. -/
theorem xblk_apply (c : Dev nD) (t : Fin cfg0.N) (p : Fin 1024) (kk : Fin 512) :
    xblk m c t (ix2 p kk) = xarr m c (ix2 (rowOf (t.val / 32) p) (col (t.val % 8) kk)) := by
  have ht := lt512 t
  obtain ⟨e0, e1, -⟩ := idx_facts t
  unfold xblk xarr iblk
  rw [View.read_apply]
  show V m c main_v2 _ = V m c main_v2 _
  refine congrArg _ (funext fun a => Fin.ext ?_)
  match a with
  | ⟨0, _⟩ =>
    show win0_0.index t (0 : Fin 2) * 1024 + 1 * p.val = (rowOf (t.val / 32) p).val
    rw [rowOf_val _ (by omega), e0]; omega
  | ⟨1, _⟩ =>
    show win0_0.index t (1 : Fin 2) * 512 + 1 * kk.val = (col (t.val % 8) kk).val
    rw [col_val _ (by omega), e1]; omega

/-- The weight's block at point `t`. -/
theorem wblk_apply (c : Dev nD) (t : Fin cfg0.N) (q : Fin 1024) (kk : Fin 512) :
    wblk m c t (ix2 q kk) = warr m c (ix2 (outOf (t.val / 8 % 4) q) (col (t.val % 8) kk)) := by
  have ht := lt512 t
  obtain ⟨-, -, e0, e1, -⟩ := idx_facts t
  unfold wblk warr iblk
  rw [View.read_apply]
  show V m c main_v1 _ = V m c main_v1 _
  refine congrArg _ (funext fun a => Fin.ext ?_)
  match a with
  | ⟨0, _⟩ =>
    show win0_1.index t (0 : Fin 2) * 1024 + 1 * q.val = (outOf (t.val / 8 % 4) q).val
    rw [outOf_val _ (by omega), e0]; omega
  | ⟨1, _⟩ =>
    show win0_1.index t (1 : Fin 2) * 512 + 1 * kk.val = (col (t.val % 8) kk).val
    rw [col_val _ (by omega), e1]; omega

/-- The bias row's block at point `t`. -/
theorem bblk_apply (c : Dev nD) (t : Fin cfg0.N) (q : Fin 1024) :
    bblk m c t (ix2 (0 : Fin 1) q) = barr m c (ix2 (0 : Fin 1) (outOf (t.val / 8 % 4) q)) := by
  have ht := lt512 t
  obtain ⟨-, -, -, -, e0, e1, -⟩ := idx_facts t
  unfold bblk barr iblk
  rw [View.read_apply]
  show V m c main_v3 _ = V m c main_v3 _
  refine congrArg _ (funext fun a => Fin.ext ?_)
  match a with
  | ⟨0, _⟩ =>
    show win0_2.index t (0 : Fin 2) * 1 + 1 * 0 = 0
    rw [e0]
  | ⟨1, _⟩ =>
    show win0_2.index t (1 : Fin 2) * 1024 + 1 * q.val = (outOf (t.val / 8 % 4) q).val
    rw [outOf_val _ (by omega), e1]; omega

end Cert.KernelIdeal.Blocks

end
-- ==== Proof.Pieces.lean ====
/-
  What each control case of the kernel body leaves behind, as a value: the accumulator scratch after the body is the body's
  one accumulation step applied to the two input blocks and to what the scratch held before (the zero block at a
  reset point), and at a last-step point the output block is that new accumulator plus the bias row laid along
  every row. Then the three steps read at an index on the extended reals.
-/
import proofs.«148594_j54090818126180_1_alg».proof.Proof.Gen.KernelIdeal.Frame
import proofs.«148594_j54090818126180_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Pieces

open Idealize.ShloMosaic Idealize.ShloMosaic.TcCoe Idealize.SL.Sem Idealize.ShloMosaic.ValueIdx
open Cert.KernelIdeal Cert.KernelIdeal.Gen

variable {F : FTy → Type} [FloatOps F]

/-- Both block offsets are zero: every load and store of the body goes through the whole buffer. -/
theorem off_zero : (![0, 0] : Fin 2 → Nat) = fun _ => 0 := funext fun a => by fin_cases a <;> rfl

/-- A reset point (first feature block): the scratch ends at the step applied to the zero block. -/
theorem scratch_A (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S1024x512 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  -- two stores, the later covering: the zero block, then the step over the zero block read back
  rw [View.canon_cons_unit_zero (S := S1024x1024) off_zero, View.readCov_unit_zero (S := S1024x1024) _ off_zero]
  simp only [View.readAt_eq_ld, h3.read_unread, h4.read_unread, View.ld_unit_zero (S := S1024x512) off_zero]

/-- A middle point: the scratch ends at the step applied to what it held. -/
theorem scratch_B (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S1024x512 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  -- one covering store, its three loads reading whole buffers
  rw [View.canon_unit_zero off_zero]
  simp only [View.readAt_eq_ld, h3.read_unread, h4.read_unread, h7.read_unread, View.ld_unit_zero (S := S1024x512) off_zero,
    View.ld_unit_zero (S := S1024x1024) off_zero]

/-- A last-step point: the same for the scratch, -/
theorem scratch_C (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S1024x512 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero off_zero]
  simp only [View.readAt_eq_ld, h3.read_unread, h4.read_unread, h7.read_unread, View.ld_unit_zero (S := S1024x512) off_zero,
    View.ld_unit_zero (S := S1024x1024) off_zero]

/-- and the output block is the new accumulator plus the bias row. -/
theorem out_C (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S1024x512 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  -- one covering store into the output; its accumulator operand is the scratch read back after the step's store
  rw [View.canon_unit_zero off_zero, View.readCov_unit_zero (S := S1024x1024) _ off_zero]
  simp only [View.readAt_eq_ld, h3.read_unread, h4.read_unread, h5.read_unread, h7.read_unread,
    View.ld_unit_zero (S := S1024x512) off_zero, View.ld_unit_zero (S := S1024x1024) off_zero, View.ld_unit_zero (S := S1x1024) off_zero]

/-! ## The steps at an index, on the extended reals -/

/-- The zero block is zero everywhere. -/
theorem pay1_apply (p q : Fin 1024) : k0_pay1 (F := Ideal) (ix2 p q) = 0 := by
  unfold k0_pay1
  rw [shapeCast_self]
  exact Ideal.ofBits_zero_f32

/-- In the block product, the left operand's row is the entry's row, -/
theorem dot_lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

/-- its column the position summed over; -/
theorem dot_lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

/-- the right operand's row is the entry's COLUMN (the second block enters transposed), -/
theorem dot_rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- and its column the position summed over. -/
theorem dot_rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- So the product of two blocks into the zero splat is, at entry `(p, q)`, row `p` of the first against row `q` of the
    second: the sum over the contraction shape re-indexed by its one coordinate. -/
theorem dot_zero_apply (a b : FVec Ideal S1024x512 .bf16) (p q : Fin 1024) :
    matmul dot_S1024x512_S1024x512_S1024x1024_1_1_0_0_n_n none a b (constant (F := Ideal) S1024x1024 .f32 0x00000000#32) (ix2 p q)
      = ∑ kk : Fin 512, a (ix2 p kk) * b (ix2 q kk) := by
  refine (Ideal.matmul_constant_zero_apply dot_S1024x512_S1024x512_S1024x1024_1_1_0_0_n_n none a b (ix2 p q)).trans ?_
  rw [← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact dot_lhs_0 _ _
    | ⟨1, _⟩ => exact (dot_lhs_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact dot_rhs_0 _ _
    | ⟨1, _⟩ => exact (dot_rhs_1 _ _).trans hk)
  rw [el, er]

/-- One accumulation step: entry `(p, q)` gains the dot product of row `p` of the first block and row `q` of the second
    (both 512 wide; the narrowing to bf16 is the identity on the extended reals). -/
theorem pay2_apply (x0 x1 : Vec Ideal S1024x512 .f32) (acc : Vec Ideal S1024x1024 .f32) (p q : Fin 1024) :
    k0_pay2 x0 x1 acc (ix2 p q) = acc (ix2 p q) + ∑ kk : Fin 512, x0 (ix2 p kk) * x1 (ix2 q kk) := by
  unfold k0_pay2
  rw [shapeCast_self, shapeCast_self, shapeCast_self]
  refine (addf_apply _ _ _).trans ?_
  exact congrArg (acc (ix2 p q) + ·) (dot_zero_apply _ _ p q)

/-- The last step: entry `(p, q)` gains entry `q` of the bias row. -/
theorem pay3_apply (acc : Vec Ideal S1024x1024 .f32) (b : Vec Ideal S1x1024 .f32) (p q : Fin 1024) :
    k0_pay3 acc b (ix2 p q) = acc (ix2 p q) + b (ix2 (0 : Fin 1) q) := by
  unfold k0_pay3
  rw [shapeCast_self]
  refine (addf_apply _ _ _).trans ?_
  exact congrArg (acc (ix2 p q) + ·) (broadcastTo_1b_ab_apply b _ p q)

end Cert.KernelIdeal.Pieces

end
-- ==== Proof.Accum.lean ====
/-
  The accumulator after every grid point. Within a row block and an output-feature block the eight points run through
  the eight input-feature blocks in order; the first resets the accumulator and adds its block's dot products, each later
  one adds its own. So after the point at input-feature block `kb` the accumulator's entry `(p, q)` is the dot product of
  the activations' row and the weight's row over the first `kb + 1` feature blocks — by induction on the point, the zero
  block's `0 + ·` absorbed at the reset.
-/
import proofs.«148594_j54090818126180_1_alg».proof.Proof.Blocks
import proofs.«148594_j54090818126180_1_alg».proof.Proof.Pieces

noncomputable section

namespace Cert.KernelIdeal.Accum

open Idealize.ShloMosaic Idealize.ShloMosaic.TcCoe Idealize.SL.Sem Idealize.ShloMosaic.ValueIdx
open Cert.KernelIdeal Cert.KernelIdeal.Gen Cert.MaskedLinear Cert.KernelIdeal.Blocks Cert.KernelIdeal.Pieces

variable (m : (ℓ : Loc nD τ sig) → Buf (Elt Ideal) ℓ)

/-- One step's gain at entry `(p, q)` is the point's feature block's contribution to the dot product. -/
theorem step_sum (c : Dev nD) (t : Fin cfg0.N) (p q : Fin 1024) :
    (∑ kk : Fin 512, xblk m c t (ix2 p kk) * wblk m c t (ix2 q kk))
      = blockDot (xarr m c) (warr m c) (rowOf (t.val / 32) p) (outOf (t.val / 8 % 4) q) (t.val % 8) := by
  unfold blockDot
  exact Finset.sum_congr rfl fun kk _ => by rw [xblk_apply, wblk_apply]

/-- A reset point leaves the first feature block's contribution. -/
theorem at_reset (c : Dev nD) (t : Fin cfg0.N) (h0 : t.val % 8 = 0) (p q : Fin 1024) :
    (outsAt0 m c t.val t.isLt).2 (ix2 p q)
      = partDot (xarr m c) (warr m c) (rowOf (t.val / 32) p) (outOf (t.val / 8 % 4) q) (t.val % 8 + 1) := by
  have h1 : ¬t.val % 8 = 7 := by omega
  rw [outsAt0_A m c t h0 h1]
  dsimp only
  refine (congrFun (scratch_A (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (xblk m c t) (wblk m c t) (bblk m c t)) (ix2 p q)).trans ?_
  refine (pay2_apply (xblk m c t) (wblk m c t) _ p q).trans ?_
  rw [pay1_apply, zero_add, step_sum, h0, partDot_succ, partDot_zero, zero_add]

/-- A later point adds its feature block's contribution to what the point before left. -/
theorem at_later (c : Dev nD) (t : Fin cfg0.N) (h0 : ¬t.val % 8 = 0) (p q : Fin 1024)
    (hprev : ∀ hp : t.val - 1 < cfg0.N, (outsAt0 m c (t.val - 1) hp).2 (ix2 p q)
      = partDot (xarr m c) (warr m c) (rowOf ((t.val - 1) / 32) p) (outOf ((t.val - 1) / 8 % 4) q) ((t.val - 1) % 8 + 1)) :
    (outsAt0 m c t.val t.isLt).2 (ix2 p q)
      = partDot (xarr m c) (warr m c) (rowOf (t.val / 32) p) (outOf (t.val / 8 % 4) q) (t.val % 8 + 1) := by
  have e1 : (t.val - 1) / 32 = t.val / 32 := by omega
  have e2 : (t.val - 1) / 8 % 4 = t.val / 8 % 4 := by omega
  have e3 : (t.val - 1) % 8 + 1 = t.val % 8 := by omega
  by_cases h1 : t.val % 8 = 7
  · rw [outsAt0_C m c t h0 h1]
    dsimp only
    refine (congrFun (scratch_C (F := Ideal) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) ((hcond0_1 t).mpr h1)
      (xblk m c t) (wblk m c t) (bblk m c t) (outsAt0 m c (t.val - 1) _).2) (ix2 p q)).trans ?_
    refine (pay2_apply (xblk m c t) (wblk m c t) _ p q).trans ?_
    rw [hprev, step_sum, e1, e2, e3, partDot_succ]
  · rw [outsAt0_B m c t h0 h1]
    dsimp only
    refine (congrFun (scratch_B (F := Ideal) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) (fun h => h1 ((hcond0_1 t).mp h))
      (xblk m c t) (wblk m c t) (bblk m c t) (outsAt0 m c (t.val - 1) _).2) (ix2 p q)).trans ?_
    refine (pay2_apply (xblk m c t) (wblk m c t) _ p q).trans ?_
    rw [hprev, step_sum, e1, e2, e3, partDot_succ]

/-- THE ACCUMULATOR after point `n`: the dot product over the feature blocks met so far. -/
theorem scratch_eq (c : Dev nD) : ∀ (n : ℕ) (h : n < cfg0.N) (p q : Fin 1024),
    (outsAt0 m c n h).2 (ix2 p q)
      = partDot (xarr m c) (warr m c) (rowOf (n / 32) p) (outOf (n / 8 % 4) q) (n % 8 + 1) := by
  intro n
  induction n with
  | zero => exact fun h p q => at_reset m c ⟨0, h⟩ rfl p q
  | succ n ih =>
    intro h p q
    by_cases h0 : (n + 1) % 8 = 0
    · exact at_reset m c ⟨n + 1, h⟩ h0 p q
    · exact at_later m c ⟨n + 1, h⟩ h0 p q (fun hp => ih hp p q)

/-- A last-step point's output block: the whole dot product plus the bias. -/
theorem out_eq (c : Dev nD) (t : Fin cfg0.N) (h7 : t.val % 8 = 7) (p q : Fin 1024) :
    (outsAt0 m c t.val t.isLt).1 (ix2 p q)
      = flatLin (xarr m c) (warr m c) (barr m c) (ix2 (rowOf (t.val / 32) p) (outOf (t.val / 8 % 4) q)) := by
  have h0 : ¬t.val % 8 = 0 := by omega
  have e1 : (t.val - 1) / 32 = t.val / 32 := by omega
  have e2 : (t.val - 1) / 8 % 4 = t.val / 8 % 4 := by omega
  have e3 : (t.val - 1) % 8 + 1 = 7 := by omega
  rw [outsAt0_C m c t h0 h7]
  dsimp only
  refine (congrFun (out_C (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h7)
    (xblk m c t) (wblk m c t) (bblk m c t) (outsAt0 m c (t.val - 1) _).2) (ix2 p q)).trans ?_
  refine (pay3_apply _ (bblk m c t) p q).trans ?_
  rw [pay2_apply, scratch_eq m c (t.val - 1) _ p q, step_sum, bblk_apply, e1, e2, e3, h7]
  exact congrArg (· + barr m c (ix2 (0 : Fin 1) (outOf (t.val / 8 % 4) q)))
    (partDot_succ (xarr m c) (warr m c) (rowOf (t.val / 32) p) (outOf (t.val / 8 % 4) q) 7).symm

end Cert.KernelIdeal.Accum

end
-- ==== Proof.Final.lean ====
/-
  The region's output array after the run. The output window's block at point `t` holds rows `1024·(t / 32) + p` and output
  features `1024·(t / 8 % 4) + q`; it is written back exactly at the last-step points (`t % 8 = 7`), where it holds the
  whole dot product plus the bias; and every entry `(r, n)` of the array lies in the block of the last-step point of row
  block `r / 1024` and output-feature block `n / 1024`. So the array ends at the flat layer of the arrays the region
  found.
-/
import proofs.«148594_j54090818126180_1_alg».proof.Proof.Accum

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.MaskedLinear Cert.KernelIdeal.Blocks Cert.KernelIdeal.Accum

variable (m : (ℓ : Loc nD τ sig) → Buf (Elt Ideal) ℓ)

/-- What the output array ends holding. -/
abbrev result (c : Dev nD) : Vec Ideal S16384x4096 .f32 := flatLin (xarr m c) (warr m c) (barr m c)

/-- WHAT A LAST-STEP POINT WRITES BACK is its block of the flat layer: entry `(p, q)` of the block is entry
    `(1024·(t / 32) + p, 1024·(t / 8 % 4) + q)` of the array. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have ht := lt512 t
  obtain ⟨-, -, -, -, -, -, e0, e1⟩ := idx_facts t
  show (cfg0.win 3).cut (grid0.coords t) ((dats m 0 c).after 3 t) = _
  rw [after0_3]
  have key : ∀ j' : S1024x1024.Idx,
      (outsAt0 m c t.val t.isLt).1 j' = result m c (((cfg0.win 3).blk t).view.emb j') := by
    intro j'
    obtain ⟨p, q, rfl⟩ : ∃ (p : Fin 1024) (q : Fin 1024), j' = ix2 p q := ⟨j' 0, j' 1, eq_ix2 j'⟩
    refine (out_eq m c t h7 p q).trans (congrArg _ (funext fun a => Fin.ext ?_))
    match a with
    | ⟨0, _⟩ =>
      show (rowOf (t.val / 32) p).val = win0_3.index t (0 : Fin 2) * 1024 + 1 * p.val
      rw [rowOf_val _ (by omega), e0]; omega
    | ⟨1, _⟩ =>
      show (outOf (t.val / 8 % 4) q).val = win0_3.index t (1 : Fin 2) * 1024 + 1 * q.val
      rw [outOf_val _ (by omega), e1]; omega
  funext j
  exact key j

/-- An index of the array is in point `t`'s block iff each coordinate is in the block's range on its axis. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

/-- Every entry is in the block of the last-step point of its row block and output-feature block. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 512 := N_0
  have hlt : ((i 0).val / 1024 * 4 + (i 1).val / 1024) * 8 + 7 < cfg0.N := by rw [hN]; omega
  refine ⟨⟨((i 0).val / 1024 * 4 + (i 1).val / 1024) * 8 + 7, hlt⟩, (flush0_3 _).mpr (by show (((i 0).val / 1024 * 4 + (i 1).val / 1024) * 8 + 7) % 8 = 7; omega), ?_⟩
  obtain ⟨-, -, -, -, -, -, e0, e1⟩ := idx_facts ⟨((i 0).val / 1024 * 4 + (i 1).val / 1024) * 8 + 7, hlt⟩
  rw [mem_blk]
  intro a
  match a with
  | ⟨0, _⟩ =>
    show win0_3.index _ (0 : Fin 2) * 1024 ≤ (i 0).val ∧ (i 0).val < win0_3.index _ (0 : Fin 2) * 1024 + 1024
    rw [e0]
    show (((i 0).val / 1024 * 4 + (i 1).val / 1024) * 8 + 7) / 32 * 1024 ≤ (i 0).val ∧ (i 0).val < (((i 0).val / 1024 * 4 + (i 1).val / 1024) * 8 + 7) / 32 * 1024 + 1024
    omega
  | ⟨1, _⟩ =>
    show win0_3.index _ (1 : Fin 2) * 1024 ≤ (i 1).val ∧ (i 1).val < win0_3.index _ (1 : Fin 2) * 1024 + 1024
    rw [e1]
    show (((i 0).val / 1024 * 4 + (i 1).val / 1024) * 8 + 7) / 8 % 4 * 1024 ≤ (i 1).val ∧ (i 1).val < (((i 0).val / 1024 * 4 + (i 1).val / 1024) * 8 + 7) / 8 % 4 * 1024 + 1024
    omega

/-- THE OUTPUT ARRAY after the run is the flat layer of the arrays the region found. -/
theorem final (c : Dev nD) : (dats m 0 c).arrAt 3 cfg0.N = result m c :=
  (dats m 0 c).arrAt_eq_of_cover 3 (result m c) (flushed_eq m c) cover

end Cert.KernelIdeal.Final

end
-- ==== Proof.Host.lean ====
/-
  The kernel program's host operations around its one region, read: before the region the activations are flattened to
  `[16384, 4096]` (row `4096·a + s` is position `(a, s)`), the weight is multiplied by the fixed column pattern laid
  along every row, and the bias becomes one row; after it the `[16384, 4096]` result is folded back to
  `[4, 4096, 4096]`. Folding the flat layer of the flattened activations back is the layer on the activations.
-/
import proofs.«148594_j54090818126180_1_alg».proof.Proof.Gen.KernelIdeal.Frame
import proofs.«148594_j54090818126180_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

namespace Cert.KernelIdeal.HostSide

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-- The fixed column pattern as the program's constant spells it, and the weight times the pattern laid along every row. -/
abbrev pattern : Vec F S4096 .f32 := fun i => FloatOps.ofBits .f32 (lit0 (S4096.rowMajor i))
abbrev maskedW (w : Vec F S4096x4096 .f32) : Vec F S4096x4096 .f32 :=
  mulf w (broadcastInDim S4096x4096 ![1] bcast_S4096_S4096x4096_1 (pattern (F := F)))

/-- The region finds the activations flattened, -/
theorem V_rows (c : Dev nD) :
    (V m c main_v2 : Vec F S16384x4096 .f32) = shapeCast S16384x4096 (m ((c : Thread nD τ).loc main_arg0)) shapeCasts_S4x4096x4096_S16384x4096 := by
  show StableHlo.after hostOps0 (fun b => m (c, b)) (Proc.devRef .tc main_v2) = _
  after_results
  rfl

/-- the weight masked, -/
theorem V_weight (c : Dev nD) :
    (V m c main_v1 : Vec F S4096x4096 .f32) = maskedW (F := F) (m ((c : Thread nD τ).loc main_arg1)) := by
  show StableHlo.after hostOps0 (fun b => m (c, b)) (Proc.devRef .tc main_v1) = _
  after_results
  rfl

/-- and the bias as one row. -/
theorem V_biasRow (c : Dev nD) :
    (V m c main_v3 : Vec F S1x4096 .f32) = shapeCast S1x4096 (m ((c : Thread nD τ).loc main_arg2)) shapeCasts_S4096_S1x4096 := by
  show StableHlo.after hostOps0 (fun b => m (c, b)) (Proc.devRef .tc main_v3) = _
  after_results
  rfl

/-- After the region the program's result is the region's output array folded back to three axes. -/
theorem tail_result (c : Dev nD) :
    Pipeline.afterTail₀ cfgs (dats m) 0 (V0 m) [hostOps1] c main_v5
      = shapeCast S4x4096x4096 ((dats m 0 c).arrAt 3 cfg0.N) shapeCasts_S16384x4096_S4x4096x4096 := by
  unfold Pipeline.afterTail₀
  show StableHlo.after hostOps1 _ (Proc.devRef .tc main_v5) = _
  after_results
  have e := Pipeline.withArrays_arr spec0 launch0.win.arr_inj c (V0 m c) (fun w => (dats m 0 c).arrAt w cfg0.N) 3
  show shapeCast S4x4096x4096
      (Pipeline.withArrays spec0 c (V0 m c) (fun w => (dats m 0 c).arrAt w cfg0.N) (Proc.devRef .tc (Pipeline.arrRef spec0 3)))
      shapeCasts_S16384x4096_S4x4096x4096 = _
  rw [e]

/-- Folding the flat layer of the flattened activations back is the layer on the activations: entry `(a, s, n)` reads
    row `4096·a + s`, whose entry `k` is `x[a, s, k]`, and the bias row's entry `n` is `b[n]`. -/
theorem flat_to_act (x : Vec Ideal S4x4096x4096 .f32) (W : Vec Ideal S4096x4096 .f32) (b : Vec Ideal S4096 .f32) :
    shapeCast S4x4096x4096
        (Cert.MaskedLinear.flatLin (shapeCast S16384x4096 x shapeCasts_S4x4096x4096_S16384x4096) W (shapeCast S1x4096 b shapeCasts_S4096_S1x4096))
        shapeCasts_S16384x4096_S4x4096x4096
      = Cert.MaskedLinear.lin3 x W b := by
  funext i
  obtain ⟨a, s, n, rfl⟩ : ∃ (a : Fin 4) (s : Fin 4096) (n : Fin 4096), i = ix3 a s n := ⟨i 0, i 1, i 2, eq_ix3 i⟩
  have hr : 4096 * a.val + s.val < 16384 := by omega
  -- entry (a, s, n) of the folded result is entry (4096·a + s, n) of the flat layer
  rw [shapeCast_apply _ shapeCasts_S16384x4096_S4x4096x4096 (ix3 a s n) (ix2 (⟨4096 * a.val + s.val, hr⟩ : Fin 16384) n) (by
    rw [Shape.rowMajor_val_two, Shape.rowMajor_val_three]
    show (4096 * a.val + s.val) * 4096 + n.val = (a.val * 4096 + s.val) * 4096 + n.val
    omega)]
  unfold Cert.MaskedLinear.flatLin Cert.MaskedLinear.lin3
  show Cert.MaskedLinear.partDot _ W (⟨4096 * a.val + s.val, hr⟩ : Fin 16384) n 8
        + shapeCast S1x4096 b shapeCasts_S4096_S1x4096 (ix2 (0 : Fin 1) n)
      = (∑ k : Fin 4096, x (ix3 a s k) * W (ix2 n k)) + b (ix1 n)
  -- the eight blocks are the whole dot product, and the bias row at (0, n) is b[n]
  rw [Cert.MaskedLinear.partDot_eight, shapeCast_a_1a_apply]
  congr 1
  refine Finset.sum_congr rfl fun k _ => ?_
  congr 1
  -- entry (4096·a + s, k) of the flattened activations is x[a, s, k]
  exact shapeCast_apply x shapeCasts_S4x4096x4096_S16384x4096 _ (ix3 a s k) (by
    rw [Shape.rowMajor_val_two, Shape.rowMajor_val_three]
    show (a.val * 4096 + s.val) * 4096 + k.val = (4096 * a.val + s.val) * 4096 + k.val
    omega)

end Cert.KernelIdeal.HostSide

end
-- ==== Proof.KernelRun.lean ====
/-
  The kernel program's run, read: its result is the layer `∑ₖ x[a, s, k] · (W[n, k] · pattern[k]) + b[n]` of the launch
  arguments — the region's output array is the flat layer of what the host operations before the region prepared
  (the activations flattened, the weight masked, the bias as a row), and the host operation after it folds the flat
  result back.
-/
import proofs.«148594_j54090818126180_1_alg».proof.Proof.Final
import proofs.«148594_j54090818126180_1_alg».proof.Proof.Host

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.MaskedLinear Cert.KernelIdeal.HostSide

variable (m : (ℓ : Loc nD τ sig) → Buf (Elt Ideal) ℓ) (ρ : Dev nD → PrngReg)

/-- What the program returns, as a function of the launch arguments. -/
abbrev result (c : Dev nD) : Vec Ideal S4x4096x4096 .f32 :=
  lin3 (m ((c : Thread nD τ).loc main_arg0)) (maskedW (F := Ideal) (m ((c : Thread nD τ).loc main_arg1))) (m ((c : Thread nD τ).loc main_arg2))

/-- The result buffer after the host tail is that function. -/
theorem tail_eq (c : Dev nD) :
    Pipeline.afterTail₀ cfgs (dats m) 0 (V0 m) [hostOps1] c main_v5 = result m c := by
  rw [tail_result m c, Cert.KernelIdeal.Final.final m c]
  show shapeCast S4x4096x4096 (flatLin (V m c main_v2 : Vec Ideal S16384x4096 .f32) (V m c main_v1 : Vec Ideal S4096x4096 .f32) (V m c main_v3 : Vec Ideal S1x4096 .f32)) shapeCasts_S16384x4096_S4x4096x4096 = _
  rw [V_rows m c, V_weight m c, V_biasRow m c]
  exact flat_to_act _ _ _

/-- Every weakly fair execution of the kernel program terminates with the result at the layer's value of the launch
    arguments and the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefRun.lean ====
/-
  The reference program's run, read: its six host operations (the fixed column pattern, its broadcast along the rows
  of the weight, the product with the weight, the contraction of the activations' last axis with the masked weight's
  last axis, the bias broadcast, the sum) leave in the result, at entry `(a, s, n)`,
  `∑ₖ x[a, s, k] · (W[n, k] · pattern[k]) + b[n]` on the extended reals.
-/
import proofs.«148594_j54090818126180_1_alg».proof.Defs
import proofs.«148594_j54090818126180_1_alg».proof.Proof.Gen.ReferenceIdeal
import proofs.«148594_j54090818126180_1_alg».proof.Proof.Spec
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.Tactic

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable {F : FTy → Type} [FloatOps F]

/-- The fixed column pattern as the program's constant spells it, and the weight times the pattern laid along every row. -/
abbrev pattern : Vec F S4096 .f32 := fun i => FloatOps.ofBits .f32 (lit0 (S4096.rowMajor i))
abbrev maskedW (w : Vec F S4096x4096 .f32) : Vec F S4096x4096 .f32 :=
  mulf w (broadcastInDim S4096x4096 ![1] bcast_S4096_S4096x4096_1 (pattern (F := F)))

/-! ## The run as the operations' composed term -/

open Idealize.ShloMosaic.StableHlo in
/-- The program's operations, in order. -/
abbrev ops : List (HloOp τ sig (Elt F)) :=
  [ nullary main_cst (fun i => FloatOps.ofBits .f32 (lit0 (S4096.rowMajor i))),
    unary main_cst main_v0 (broadcastInDim S4096x4096 ![1] bcast_S4096_S4096x4096_1 : (⟨S4096, .f32⟩ : BufTy).Contents (Elt F) → (⟨S4096x4096, .f32⟩ : BufTy).Contents (Elt F)),
    binary main_arg1 main_v0 main_v1 (mulf : (⟨S4096x4096, .f32⟩ : BufTy).Contents (Elt F) → (⟨S4096x4096, .f32⟩ : BufTy).Contents (Elt F) → (⟨S4096x4096, .f32⟩ : BufTy).Contents (Elt F)),
    binary main_arg0 main_v1 main_v2 ((fun l r => Host.dotGeneral dot_S4x4096x4096_S4096x4096_S4x4096x4096_2_1_01_0_n_n none l r) : (⟨S4x4096x4096, .f32⟩ : BufTy).Contents (Elt F) → (⟨S4096x4096, .f32⟩ : BufTy).Contents (Elt F) → (⟨S4x4096x4096, .f32⟩ : BufTy).Contents (Elt F)),
    unary main_arg2 main_v3 (broadcastInDim S1x1x4096 ![2] bcast_S4096_S1x1x4096_2 : (⟨S4096, .f32⟩ : BufTy).Contents (Elt F) → (⟨S1x1x4096, .f32⟩ : BufTy).Contents (Elt F)),
    unary main_v3 main_v4 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_v2 main_v4 main_v5 (addf : (⟨S4x4096x4096, .f32⟩ : BufTy).Contents (Elt F) → (⟨S4x4096x4096, .f32⟩ : BufTy).Contents (Elt F) → (⟨S4x4096x4096, .f32⟩ : BufTy).Contents (Elt F)) ]

open Idealize.ShloMosaic.StableHlo in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
open Idealize.ShloMosaic.StableHlo in
theorem ops_sub : (ops : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩

/-- The result as the operations compose it: the contraction of the activations with the masked weight, plus the bias
    laid along the last axis. -/
abbrev composed (x : Vec F S4x4096x4096 .f32) (w : Vec F S4096x4096 .f32) (b : Vec F S4096 .f32) : Vec F S4x4096x4096 .f32 :=
  addf (Host.dotGeneral dot_S4x4096x4096_S4096x4096_S4x4096x4096_2_1_01_0_n_n none x (maskedW w))
    (broadcastInDim S4x4096x4096 ![0, 1, 2] bcast_S1x1x4096_S4x4096x4096_0_1_2 (broadcastInDim S1x1x4096 ![2] bcast_S4096_S1x1x4096_2 b))

open Idealize.ShloMosaic.StableHlo in
/-- For any float values, from any memory with zero counters: every weakly fair execution of the program terminates
    with the result at the operations' composed term of the arguments and the arguments unchanged. -/
theorem run_composed (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v5)
          = composed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

/-! ## The composed term at an index, on the extended reals -/

/-- The contraction's operand indices, axis by axis: the activations' two leading axes read the result's coordinates
    0 and 1 and their last axis the contracted coordinate; the weight's first axis reads the result's coordinate 2 and
    its last axis the contracted coordinate. -/
theorem lhs_0 (i : S4x4096x4096.Idx) (q : dot_S4x4096x4096_S4096x4096_S4x4096x4096_2_1_01_0_n_n.contr.Idx) :
    (dot_S4x4096x4096_S4096x4096_S4x4096x4096_2_1_01_0_n_n.lhsIdx i q 0).val = (i 0).val := by
  unfold DotDims.lhsIdx
  rw [dif_neg (show ¬(0 : Fin S4x4096x4096.rank) ∈ dot_S4x4096x4096_S4096x4096_S4x4096x4096_2_1_01_0_n_n.lhsBatch by decide), dif_pos (show (0 : Fin S4x4096x4096.rank) ∈ dot_S4x4096x4096_S4096x4096_S4x4096x4096_2_1_01_0_n_n.lhsNonContracting by decide)]
  rfl
theorem lhs_1 (i : S4x4096x4096.Idx) (q : dot_S4x4096x4096_S4096x4096_S4x4096x4096_2_1_01_0_n_n.contr.Idx) :
    (dot_S4x4096x4096_S4096x4096_S4x4096x4096_2_1_01_0_n_n.lhsIdx i q 1).val = (i 1).val := by
  unfold DotDims.lhsIdx
  rw [dif_neg (show ¬(1 : Fin S4x4096x4096.rank) ∈ dot_S4x4096x4096_S4096x4096_S4x4096x4096_2_1_01_0_n_n.lhsBatch by decide), dif_pos (show (1 : Fin S4x4096x4096.rank) ∈ dot_S4x4096x4096_S4096x4096_S4x4096x4096_2_1_01_0_n_n.lhsNonContracting by decide)]
  rfl
theorem lhs_2 (i : S4x4096x4096.Idx) (q : dot_S4x4096x4096_S4096x4096_S4x4096x4096_2_1_01_0_n_n.contr.Idx) :
    (dot_S4x4096x4096_S4096x4096_S4x4096x4096_2_1_01_0_n_n.lhsIdx i q 2).val = (q ⟨0, by decide⟩).val :=
  dot_S4x4096x4096_S4096x4096_S4x4096x4096_2_1_01_0_n_n.lhsIdx_val_of_single rfl i q
theorem rhs_0 (i : S4x4096x4096.Idx) (q : dot_S4x4096x4096_S4096x4096_S4x4096x4096_2_1_01_0_n_n.contr.Idx) :
    (dot_S4x4096x4096_S4096x4096_S4x4096x4096_2_1_01_0_n_n.rhsIdx i q 0).val = (i 2).val := by
  unfold DotDims.rhsIdx
  rw [dif_neg (show ¬(0 : Fin S4096x4096.rank) ∈ dot_S4x4096x4096_S4096x4096_S4x4096x4096_2_1_01_0_n_n.rhsBatch by decide), dif_pos (show (0 : Fin S4096x4096.rank) ∈ dot_S4x4096x4096_S4096x4096_S4x4096x4096_2_1_01_0_n_n.rhsNonContracting by decide)]
  rfl
theorem rhs_1 (i : S4x4096x4096.Idx) (q : dot_S4x4096x4096_S4096x4096_S4x4096x4096_2_1_01_0_n_n.contr.Idx) :
    (dot_S4x4096x4096_S4096x4096_S4x4096x4096_2_1_01_0_n_n.rhsIdx i q 1).val = (q ⟨0, by decide⟩).val :=
  dot_S4x4096x4096_S4096x4096_S4x4096x4096_2_1_01_0_n_n.rhsIdx_val_of_single rfl i q

/-- The operands' indices at result index `i` and contracted coordinate `k`. -/
abbrev lidx (i : S4x4096x4096.Idx) (k : Fin 4096) : S4x4096x4096.Idx := ix3 (i 0) (i 1) k
abbrev ridx (i : S4x4096x4096.Idx) (k : Fin 4096) : S4096x4096.Idx := ix2 (i 2) k

/-- On the extended reals the contraction is the sum over the one contracted axis. -/
theorem dot_apply (x : FVec Ideal S4x4096x4096 .f32) (W : FVec Ideal S4096x4096 .f32) (i : S4x4096x4096.Idx) :
    Host.dotGeneral dot_S4x4096x4096_S4096x4096_S4x4096x4096_2_1_01_0_n_n none x W i = ∑ k : Fin 4096, x (lidx i k) * W (ridx i k) := by
  simp only [Host.dotGeneral]
  rw [Ideal.dotGeneral_apply, ← Equiv.sum_comp (ValueIdx.contrEquiv1 dot_S4x4096x4096_S4096x4096_S4x4096x4096_2_1_01_0_n_n 4096 rfl rfl).symm]
  refine Finset.sum_congr rfl fun k _ => ?_
  have hk := ValueIdx.contrEquiv1_symm_val dot_S4x4096x4096_S4096x4096_S4x4096x4096_2_1_01_0_n_n 4096 rfl rfl k
  have el : dot_S4x4096x4096_S4096x4096_S4x4096x4096_2_1_01_0_n_n.lhsIdx i ((ValueIdx.contrEquiv1 dot_S4x4096x4096_S4096x4096_S4x4096x4096_2_1_01_0_n_n 4096 rfl rfl).symm k) = lidx i k := funext fun a => Fin.ext (by
    match a with
    | ⟨0, _⟩ => exact lhs_0 _ _
    | ⟨1, _⟩ => exact lhs_1 _ _
    | ⟨2, _⟩ => exact (lhs_2 _ _).trans hk)
  have er : dot_S4x4096x4096_S4096x4096_S4x4096x4096_2_1_01_0_n_n.rhsIdx i ((ValueIdx.contrEquiv1 dot_S4x4096x4096_S4096x4096_S4x4096x4096_2_1_01_0_n_n 4096 rfl rfl).symm k) = ridx i k := funext fun a => Fin.ext (by
    match a with
    | ⟨0, _⟩ => exact rhs_0 _ _
    | ⟨1, _⟩ => exact (rhs_1 _ _).trans hk)
  rw [el, er]

/-- The bias, laid along the last axis in two steps, reads its entry at the result's last coordinate. -/
abbrev bidx (i : S4x4096x4096.Idx) : S1x1x4096.Idx := fun a => match a with
  | ⟨0, _⟩ => ⟨0, Nat.one_pos⟩
  | ⟨1, _⟩ => ⟨0, Nat.one_pos⟩
  | ⟨2, _⟩ => ⟨(i 2).val, (i 2).isLt⟩

theorem bias_apply {α : Type} (b : S4096.Idx → α) (i : S4x4096x4096.Idx) :
    broadcastInDim S4x4096x4096 ![0, 1, 2] bcast_S1x1x4096_S4x4096x4096_0_1_2 (broadcastInDim S1x1x4096 ![2] bcast_S4096_S1x1x4096_2 b) i
      = b (ix1 (i 2)) := by
  rw [broadcastInDim_apply _ bcast_S1x1x4096_S4x4096x4096_0_1_2 (broadcastInDim S1x1x4096 ![2] bcast_S4096_S1x1x4096_2 b) i (bidx i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (4096 : Nat) = 1 then 0 else (i 2).val; rw [if_neg (by decide)])]
  exact broadcastInDim_apply _ bcast_S4096_S1x1x4096_2 b (bidx i) (ix1 (i 2)) (fun a => match a with
    | ⟨0, _⟩ => by show (i 2).val = if (4096 : Nat) = 1 then 0 else (i 2).val; rw [if_neg (by decide)])

/-- The composed term is the layer's value of the activations, the masked weight and the bias. -/
theorem composed_eq (x : Vec Ideal S4x4096x4096 .f32) (w : Vec Ideal S4096x4096 .f32) (b : Vec Ideal S4096 .f32) :
    composed x w b = Cert.MaskedLinear.lin3 x (maskedW (F := Ideal) w) b := by
  funext i
  unfold composed Cert.MaskedLinear.lin3
  generalize maskedW (F := Ideal) w = W
  rw [addf_apply, bias_apply, dot_apply]

/-- Every weakly fair execution of the reference terminates with the result at the layer's value of the launch
    arguments (the weight masked) and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = Cert.MaskedLinear.lin3 (m ((c.tc : Thread nD τ).loc main_arg0)) (maskedW (F := Ideal) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (composed_eq _ _ _), (h c).2⟩) (run_composed m ρ)

end Cert.ReferenceIdeal.RefValue

end
-- ==== Proof.Pattern.lean ====
/-
  The fixed column pattern is one table: the two programs print the same 4096 words, each in its own namespace, and the
  two tables are the same function entry by entry (the same definition unfolded).
-/
import proofs.«148594_j54090818126180_1_alg».proof.KernelIdeal
import proofs.«148594_j54090818126180_1_alg».proof.ReferenceIdeal

set_option maxRecDepth 65536

namespace Cert.Pattern

theorem table_eq : (Cert.ReferenceIdeal.lit0 : Fin 4096 → BitVec 32) = Cert.KernelIdeal.lit0 := rfl

end Cert.Pattern
-- ==== Proof.lean ====
/-
  The certificate of a masked linear layer. The kernel program multiplies the weight by a fixed column pattern on the
  host, flattens the activations to 16384 rows, and computes `x · (W ∘ pattern)ᵀ + b` in a 16 × 4 × 8 grid: each of the
  64 output blocks of 1024 × 1024 is accumulated over eight feature blocks of 512 in a scratch accumulator (reset at the
  first, the bias added and the block written at the last), and the flat result is folded back to `[4, 4096, 4096]`. The
  reference contracts the activations' last axis with the masked weight's last axis in one step and adds the bias.
  On the extended reals both results are `∑ₖ x[a, s, k] · (W[n, k] · pattern[k]) + b[n]`: narrowing to bf16 is the
  identity, the zero accumulator is absorbed, and the eight partial sums are the whole sum because addition of extended
  reals is commutative and associative (no finiteness is needed, so the precondition is never opened). The pattern is
  the same table of words in both programs and is never evaluated.
  The three frames: the kernel programs' are the generated frame certificates; the reference's is its run with the
  result dropped. The idealization rewrote nothing, so `preserves` is trivial.
-/
import proofs.«148594_j54090818126180_1_alg».proof.Defs
import proofs.«148594_j54090818126180_1_alg».proof.Proof.Gen.Kernel
import proofs.«148594_j54090818126180_1_alg».proof.Proof.Gen.Kernel.Skeleton
import proofs.«148594_j54090818126180_1_alg».proof.Proof.Gen.Kernel.Launch
import proofs.«148594_j54090818126180_1_alg».proof.Proof.Gen.Kernel.Points
import proofs.«148594_j54090818126180_1_alg».proof.Proof.Gen.Kernel.Frame
import proofs.«148594_j54090818126180_1_alg».proof.Proof.Gen.KernelIdeal
import proofs.«148594_j54090818126180_1_alg».proof.Proof.Gen.KernelIdeal.Skeleton
import proofs.«148594_j54090818126180_1_alg».proof.Proof.Gen.KernelIdeal.Launch
import proofs.«148594_j54090818126180_1_alg».proof.Proof.Gen.KernelIdeal.Points
import proofs.«148594_j54090818126180_1_alg».proof.Proof.Gen.KernelIdeal.Frame
import proofs.«148594_j54090818126180_1_alg».proof.Proof.Gen.ReferenceIdeal
import proofs.«148594_j54090818126180_1_alg».proof.Proof.Gen.Pre_finite_inputs
import proofs.«148594_j54090818126180_1_alg».proof.Proof.KernelRun
import proofs.«148594_j54090818126180_1_alg».proof.Proof.RefRun
import proofs.«148594_j54090818126180_1_alg».proof.Proof.Pattern
import Idealize.ShloMosaic.Adequacy
import Idealize.ShloMosaic.Init

noncomputable section

namespace Cert.Proof

open Idealize.ShloMosaic Idealize.SL.Sem

/-- The two programs' masked weights are one function of the weight: the pattern tables agree. -/
theorem maskedW_eq (w : Vec Ideal Cert.KernelIdeal.S4096x4096 .f32) :
    Cert.ReferenceIdeal.RefValue.maskedW (F := Ideal) w = Cert.KernelIdeal.HostSide.maskedW (F := Ideal) w := by
  unfold Cert.ReferenceIdeal.RefValue.maskedW Cert.KernelIdeal.HostSide.maskedW Cert.ReferenceIdeal.RefValue.pattern Cert.KernelIdeal.HostSide.pattern
  rw [Cert.Pattern.table_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Both programs end with the layer's value of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2, maskedW_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
